-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S128 : Shape := ⟨1, ![128]⟩
abbrev S1x1 : Shape := ⟨2, ![1, 1]⟩
abbrev S1 : Shape := ⟨1, ![1]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128 : S_.BroadcastsInDim S128 (![] : Fin 0 → Fin S128.rank)
  reducesTo_S128_S_d0 : S128.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1000000x128 .f32) (main_arg1 : FVec F S128 .f32) (main_arg2 : FVec F S1x1 .f32) (main_arg3 : FVec F S1 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1000000x128 : Shape := ⟨2, ![1000000, 128]⟩
abbrev S128 : Shape := ⟨1, ![128]⟩
abbrev S1x1 : Shape := ⟨2, ![1, 1]⟩
abbrev S1 : Shape := ⟨1, ![1]⟩
abbrev S_ : Shape := ⟨0, ![]⟩
abbrev S1007616x128 : Shape := ⟨2, ![1007616, 128]⟩
abbrev S1007616 : Shape := ⟨1, ![1007616]⟩
abbrev S8192x128 : Shape := ⟨2, ![8192, 128]⟩
abbrev S8192 : Shape := ⟨1, ![8192]⟩
abbrev S1x128 : Shape := ⟨2, ![1, 128]⟩
abbrev S8192x1 : Shape := ⟨2, ![8192, 1]⟩
abbrev S1000000 : Shape := ⟨1, ![1000000]⟩

abbrev nBuf : Space → Nat
  | .hbm => 9
  | .vmem => 7
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S1x1, .f32⟩
  | .hbm, ⟨3, _⟩ => ⟨S1, .f32⟩
  | .hbm, ⟨4, _⟩ => ⟨S_, .i32⟩
  | .hbm, ⟨5, _⟩ => ⟨S_, .f32⟩
  | .hbm, ⟨6, _⟩ => ⟨S1007616x128, .f32⟩
  | .hbm, ⟨7, _⟩ => ⟨S1007616, .f32⟩
  | .hbm, ⟨8, _⟩ => ⟨S1000000, .f32⟩
  | .local _ .vmem, ⟨0, _⟩ => ⟨S8192x128, .f32⟩
  | .local _ .vmem, ⟨1, _⟩ => ⟨S8192x128, .f32⟩
  | .local _ .vmem, ⟨2, _⟩ => ⟨S128, .f32⟩
  | .local _ .vmem, ⟨3, _⟩ => ⟨S1x1, .f32⟩
  | .local _ .vmem, ⟨4, _⟩ => ⟨S1, .f32⟩
  | .local _ .vmem, ⟨5, _⟩ => ⟨S8192, .f32⟩
  | .local _ .vmem, ⟨6, _⟩ => ⟨S8192, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S1000000x128_S1007616x128_076160_000 : S1000000x128.Pads (![0, 0] : Fin 2 → Nat) ![7616, 0] ![0, 0] S1007616x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  reduces_S8192x128_S8192 : S8192x128.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1_S1_0 : ∀ a, (![0] : Fin 1 → Nat) a + S1.size a ≤ S1.size a
  h_S1 : 0 < S1.numel
  inpos_S1_p0 : ∀ a, (![0] : Fin 1 → Nat) a < S1.size a
  shapeCasts_S8192x1_S8192 : S8192x1.ShapeCasts S8192
  inb_S8192_S8192_0 : ∀ a, (![0] : Fin 1 → Nat) a + S8192.size a ≤ S8192.size a
  h_S8192 : 0 < S8192.numel
  slices_S1007616_S1000000_0 : S1007616.Slices ![0] S1000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1007616x128.size a
  hwx0_0 : ∀ i : grid0.Coords, EltTy.bits .f32 = 32 ∨ (Rect.block (s := S1007616x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S1007616.size a
  hwx0_4 : ∀ i : grid0.Coords, EltTy.bits .f32 = 32 ∨ (Rect.block (s := S1007616) S8192.size (cc0_transform_4 i) (hinb0_4 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S128 : Shape := ⟨1, ![128]⟩
abbrev S1x1 : Shape := ⟨2, ![1, 1]⟩
abbrev S1 : Shape := ⟨1, ![1]⟩
abbrev S1x128 : Shape := ⟨2, ![1, 128]⟩
abbrev S_ : Shape := ⟨0, ![]⟩
abbrev S1000000 : Shape := ⟨1, ![1000000]⟩
abbrev S1000000x1 : Shape := ⟨2, ![1000000, 1]⟩

abbrev nBuf : Space → Nat
  | .hbm => 21
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S1x1, .f32⟩
  | .hbm, ⟨3, _⟩ => ⟨S1, .f32⟩
  | .hbm, ⟨4, _⟩ => ⟨S1x128, .f32⟩
  | .hbm, ⟨5, _⟩ => ⟨S1000000x128, .f32⟩
  | .hbm, ⟨6, _⟩ => ⟨S1000000x128, .f32⟩
  | .hbm, ⟨7, _⟩ => ⟨S1000000x128, .f32⟩
  | .hbm, ⟨8, _⟩ => ⟨S_, .f32⟩
  | .hbm, ⟨9, _⟩ => ⟨S1000000, .f32⟩
  | .hbm, ⟨10, _⟩ => ⟨S1000000x1, .f32⟩
  | .hbm, ⟨11, _⟩ => ⟨S_, .f32⟩
  | .hbm, ⟨12, _⟩ => ⟨S1000000x1, .f32⟩
  | .hbm, ⟨13, _⟩ => ⟨S1000000x1, .f32⟩
  | .hbm, ⟨14, _⟩ => ⟨S1000000x1, .f32⟩
  | .hbm, ⟨15, _⟩ => ⟨S1x1, .f32⟩
  | .hbm, ⟨16, _⟩ => ⟨S1000000x1, .f32⟩
  | .hbm, ⟨17, _⟩ => ⟨S1x1, .f32⟩
  | .hbm, ⟨18, _⟩ => ⟨S1000000x1, .f32⟩
  | .hbm, ⟨19, _⟩ => ⟨S1000000x1, .f32⟩
  | .hbm, ⟨20, _⟩ => ⟨S1000000, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  transposes_S1x1_S1x1_1_0 : S1x1.Transposes [1, 0] S1x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  dot_S1000000x1_S1x1_S1000000x1_1_0_0_1_n_n_wf : DotDims.WF S1000000x1 S1x1 S1000000x1 [1] [0] [0] [1] [] []

variable [Facts₀]

def dot_S1000000x1_S1x1_S1000000x1_1_0_0_1_n_n : DotDims S1000000x1 S1x1 S1000000x1 where
  lhsContracting := [1]
  rhsContracting := [0]
  lhsNonContracting := [0]
  rhsNonContracting := [1]
  lhsBatch := []
  rhsBatch := []
  wf := dot_S1000000x1_S1x1_S1000000x1_1_0_0_1_n_n_wf

class Facts : Prop extends Facts₀ where

variable [Facts]
-- ==== Proof.RowFn.lean ====
/-
  The function both programs compute, one row at a time.

  For a row x ∈ EReal^128, a centre c ∈ EReal^128 and two scalars w, b, the result is
      exp (γ · Σ_k (x_k − c_k)²) · w + b,        γ the f32 word 0xBC000000 (that is −1/128),
  over the extended reals: the sum is the plain 128-term sum, nothing is reassociated, and the
  word γ is never evaluated (both programs carry the same word). `rows` applies it to every row
  of an n × 128 array; the result is a vector of n entries.
-/
import Idealize.ShloMosaic.PureOps.Ideal
import Idealize.ShloMosaic.Lib.ValueIdx

noncomputable section

open scoped BigOperators

namespace Cert.Rbf

open Idealize.ShloMosaic Idealize.ShloMosaic.ValueIdx

/-- One row: the radial basis value against the centre, then the affine map `· w + b`. -/
def rowVal (x c : Fin 128 → EReal) (w b : EReal) : EReal :=
  Ideal.exp (Ideal.ofBits .f32 0xBC000000#32 * ∑ k : Fin 128, (x k - c k) * (x k - c k)) * w + b

/-- Every row of an `n × 128` array, against one centre, one weight and one bias. -/
def rows {n : Nat} (X : (⟨2, ![n, 128]⟩ : Shape).Idx → EReal) (c : (⟨1, ![128]⟩ : Shape).Idx → EReal)
    (w : (⟨2, ![1, 1]⟩ : Shape).Idx → EReal) (b : (⟨1, ![1]⟩ : Shape).Idx → EReal) :
    (⟨1, ![n]⟩ : Shape).Idx → EReal :=
  fun i => rowVal (fun k => X (ix2 (i 0) k)) (fun k => c (ix1 k)) (w (ix2 (0 : Fin 1) (0 : Fin 1))) (b (ix1 (0 : Fin 1)))

/-- `rows` at a row depends on that row of the array only. -/
theorem rows_congr {n n' : Nat} (X : (⟨2, ![n, 128]⟩ : Shape).Idx → EReal) (X' : (⟨2, ![n', 128]⟩ : Shape).Idx → EReal)
    (c : (⟨1, ![128]⟩ : Shape).Idx → EReal) (w : (⟨2, ![1, 1]⟩ : Shape).Idx → EReal) (b : (⟨1, ![1]⟩ : Shape).Idx → EReal)
    (i : Fin n) (i' : Fin n') (h : ∀ k : Fin 128, X (ix2 i k) = X' (ix2 i' k)) :
    rows X c w b (ix1 i) = rows X' c w b (ix1 i') := by
  unfold rows
  have e : (fun k => X (ix2 ((ix1 i : (⟨1, ![n]⟩ : Shape).Idx) 0) k)) = fun k => X' (ix2 ((ix1 i' : (⟨1, ![n']⟩ : Shape).Idx) 0) k) :=
    funext fun k => h k
  rw [e]

end Cert.Rbf

end
-- ==== Proof.Payload.lean ====
/-
  The kernel body's stored value, read at one row of a block.

  The body loads an 8192 × 128 block x, the centre c, the 1 × 1 weight and the 1-entry bias, and
  stores the 8192-vector whose entry r is
      exp (γ · Σ_k (x[r,k] − c[k])²) · w[0,0] + b[0].
  Two steps: the lane sum of the squared differences at row r is the 128-term sum (`sq_row`), and
  everything after it is pointwise in the row (`tail_row`); the shape casts between [8192] and
  [8192, 1] keep the row-major position, and the centre's row [1, 128] is read under every row.
-/
import proofs.«166539_j74234214744185_1_alg».proof.Proof.Gen.KernelIdeal.Skeleton
import proofs.«166539_j74234214744185_1_alg».proof.Proof.RowFn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.Rbf

/-- The centre's row, broadcast under every row of the block, read at `(r, k)`: lane `k` of the centre. -/
theorem centre_row (x1 : FVec Ideal S128 .f32) (r : Fin 8192) (k : Fin 128) :
    broadcastTo S8192x128 (shapeCast S1x128 x1 shapeCasts_S128_S1x128) broadcasts_S1x128_S8192x128 (ix2 r k) = x1 (ix1 k) := by
  refine (broadcastTo_1b_ab_apply _ _ r k).trans ?_
  refine shapeCast_apply _ _ _ (ix1 k) ?_
  rw [Shape.rowMajor_val_two, Shape.rowMajor_val_one]
  show k.val = 0 * 128 + k.val
  omega

/-- The index the lane reduction reads for result row `r` and lane `k` is `(r, k)`. -/
theorem lift_row (r : Fin 8192) (k : Fin 128) : reduces_S8192x128_S8192.lift (ix1 r) k = ix2 r k := by
  funext a; apply Fin.ext
  match a with
  | ⟨0, _⟩ => rfl
  | ⟨1, _⟩ => rfl

/-- One term of the lane sum: the squared difference of entry `(r, k)` and lane `k` of the centre. -/
theorem sq_term (x0 : FVec Ideal S8192x128 .f32) (x1 : FVec Ideal S128 .f32) (r : Fin 8192) (k : Fin 128) :
    mulf (subf (shapeCast S8192x128 x0 shapeCasts_S8192x128_S8192x128) (broadcastTo S8192x128 (shapeCast S1x128 x1 shapeCasts_S128_S1x128) broadcasts_S1x128_S8192x128))
        (subf (shapeCast S8192x128 x0 shapeCasts_S8192x128_S8192x128) (broadcastTo S8192x128 (shapeCast S1x128 x1 shapeCasts_S128_S1x128) broadcasts_S1x128_S8192x128))
        (reduces_S8192x128_S8192.lift (ix1 r) k)
      = (x0 (ix2 r k) - x1 (ix1 k)) * (x0 (ix2 r k) - x1 (ix1 k)) := by
  rw [lift_row, shapeCast_self]
  show (x0 (ix2 r k) - broadcastTo S8192x128 (shapeCast S1x128 x1 shapeCasts_S128_S1x128) broadcasts_S1x128_S8192x128 (ix2 r k))
      * (x0 (ix2 r k) - broadcastTo S8192x128 (shapeCast S1x128 x1 shapeCasts_S128_S1x128) broadcasts_S1x128_S8192x128 (ix2 r k)) = _
  rw [centre_row]

/-- The lane sum of the squared differences, at row `r`: the sum over the 128 lanes. -/
theorem sq_row (x0 : FVec Ideal S8192x128 .f32) (x1 : FVec Ideal S128 .f32) (r : Fin 8192) :
    multiReduction (F := Ideal) .add [1] S8192
        (mulf (subf (shapeCast S8192x128 x0 shapeCasts_S8192x128_S8192x128) (broadcastTo S8192x128 (shapeCast S1x128 x1 shapeCasts_S128_S1x128) broadcasts_S1x128_S8192x128))
          (subf (shapeCast S8192x128 x0 shapeCasts_S8192x128_S8192x128) (broadcastTo S8192x128 (shapeCast S1x128 x1 shapeCasts_S128_S1x128) broadcasts_S1x128_S8192x128)))
        0x00000000#32 reduces_S8192x128_S8192 (.inl rfl) rfl (ix1 r)
      = ∑ k : Fin 128, (x0 (ix2 r k) - x1 (ix1 k)) * (x0 (ix2 r k) - x1 (ix1 k)) :=
  (Ideal.multiReduction_add_single _ (0x00000000#32 : BitVec 32) reduces_S8192x128_S8192 (.inl rfl) rfl (ix1 r)).trans
    (Finset.sum_congr rfl fun k _ => sq_term x0 x1 r k)

/-- From the row sums `y` to the stored vector, at row `r`: `exp (γ · y r) · w + b`. -/
theorem tail_row (y : FVec Ideal S8192 .f32) (w b : EReal) (r : Fin 8192) :
    shapeCast S8192
        (addf (mulf (exp (mulf (broadcast S8192x1 (Scalar.ofBits (F := Ideal) .f32 0xBC000000#32)) (shapeCast S8192x1 y shapeCasts_S8192_S8192x1)))
          (broadcast S8192x1 w)) (broadcast S8192x1 b)) shapeCasts_S8192x1_S8192 (ix1 r)
      = Ideal.exp (Ideal.ofBits .f32 0xBC000000#32 * y (ix1 r)) * w + b := by
  refine (shapeCast_apply _ _ (ix1 r) (ix2 r (0 : Fin 1)) ?_).trans ?_
  · rw [Shape.rowMajor_val_two, Shape.rowMajor_val_one]
    show r.val * 1 + 0 = r.val
    omega
  have hy : shapeCast S8192x1 y shapeCasts_S8192_S8192x1 (ix2 r (0 : Fin 1)) = y (ix1 r) := by
    refine shapeCast_apply _ _ _ (ix1 r) ?_
    rw [Shape.rowMajor_val_two, Shape.rowMajor_val_one]
    show r.val = r.val * 1 + 0
    omega
  show Ideal.exp (Ideal.ofBits .f32 0xBC000000#32 * shapeCast S8192x1 y shapeCasts_S8192_S8192x1 (ix2 r (0 : Fin 1))) * w + b = _
  rw [hy]

/-- The scalar extracted from the 1 × 1 weight is its one entry. -/
theorem weight_entry (x2 : Vec Ideal S1x1 .f32) :
    extractAt ![0, 0] x2 inpos_S1x1_p0_0 = x2 (ix2 (0 : Fin 1) (0 : Fin 1)) := by
  unfold extractAt
  exact congrArg x2 (funext fun a => Fin.ext (by match a with | ⟨0, _⟩ => rfl | ⟨1, _⟩ => rfl))

/-- The scalar extracted from the 1-entry bias is its one entry. -/
theorem bias_entry (x3 : Vec Ideal S1 .f32) :
    extractAt ![0] x3 inpos_S1_p0 = x3 (ix1 (0 : Fin 1)) := by
  unfold extractAt
  exact congrArg x3 (funext fun a => Fin.ext (by match a with | ⟨0, _⟩ => rfl))

/-- THE STORED VALUE AT ROW `r` is the row function of row `r` of the loaded block, the loaded centre, and the one
    entry of the loaded weight and of the loaded bias. -/
theorem pay_row (x0 : Vec Ideal S8192x128 .f32) (x1 : Vec Ideal S128 .f32) (x2 : Vec Ideal S1x1 .f32) (x3 : Vec Ideal S1 .f32)
    (r : Fin 8192) :
    k0_pay1 (F := Ideal) x0 x1 x2 x3 (ix1 r)
      = rowVal (fun k => x0 (ix2 r k)) (fun k => x1 (ix1 k)) (x2 (ix2 (0 : Fin 1) (0 : Fin 1))) (x3 (ix1 (0 : Fin 1))) := by
  unfold k0_pay1
  dsimp only
  refine (tail_row _ _ _ r).trans ?_
  rw [sq_row, weight_entry, bias_entry]
  rfl

end Cert.KernelIdeal.RowValue

end
-- ==== Proof.KernelRows.lean ====
/-
  The kernel's result array is the row function of every row of its first argument.

  The program pads the 1000000 × 128 argument with 7616 zero rows to 1007616 × 128, runs the body
  on 123 blocks of 8192 rows, and keeps the first 1000000 entries of the 1007616-vector the blocks
  fill. Point t reads rows 8192·t … 8192·t + 8191 of the padded array and the whole centre, weight
  and bias, and writes entries 8192·t … 8192·t + 8191 of the output: block t of `rows` of the padded
  array (`flushed_eq`). The 123 blocks tile the 1007616 entries (`cover`), so the output array is
  `rows` of the padded array (`filled`). An entry below 1000000 reads a row of the padded array
  that is a row of the argument, so the kept slice is `rows` of the argument (`result_eq`).
-/
import proofs.«166539_j74234214744185_1_alg».proof.Proof.Gen.KernelIdeal.Frame
import proofs.«166539_j74234214744185_1_alg».proof.Proof.Payload
import Idealize.ShloMosaic.Lib.Pipeline.Value
import Idealize.ShloMosaic.Lib.KernelVsHost
import Idealize.ShloMosaic.Lib.StableHlo.Run
import Idealize.ShloMosaic.Lib.Tactic

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Rbf Cert.KernelIdeal.RowValue
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl

/-! ## One point -/

/-- The block indices over the grid: the row block of the padded array moves with the output's block, every other
    window stays at block 0, and the output's block index is below 123. -/
theorem idx_facts : ∀ t : Fin cfg0.N,
    win0_0.index t (0 : Fin 2) = win0_4.index t (0 : Fin 1) ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 1) ≤ 122 :=
  (by decide +kernel : ∀ t : Fin grid0.N, _)

/-- Every output block is some point's. -/
theorem idx_onto : ∀ q : Fin 123, ∃ t : Fin cfg0.N, win0_4.index t (0 : Fin 1) = q.val :=
  (by decide +kernel : ∀ q : Fin 123, ∃ t : Fin grid0.N, win0_4.index t (0 : Fin 1) = q.val)

/-- What the body stores at a point whose loaded blocks are: rows `8192·q …` of an array `Xp`, and the whole of `cc`,
    `w`, `b` — entry `j` of the store is entry `8192·q + j` of `rows Xp cc w b`. -/
theorem point_eq (Xp : S1007616x128.Idx → EReal) (cc : S128.Idx → EReal) (w : S1x1.Idx → EReal) (b : S1.Idx → EReal)
    (x0 : Vec Ideal S8192x128 .f32) (x1 : Vec Ideal S128 .f32) (x2 : Vec Ideal S1x1 .f32) (x3 : Vec Ideal S1 .f32)
    (q : Nat) (hq : q ≤ 122)
    (h0 : ∀ (r : Fin 8192) (k : Fin 128), x0 (ix2 r k) = Xp (ix2 (⟨q * 8192 + r.val, by have := r.isLt; omega⟩ : Fin 1007616) k))
    (h1 : ∀ k : Fin 128, x1 (ix1 k) = cc (ix1 k))
    (h2 : x2 (ix2 (0 : Fin 1) (0 : Fin 1)) = w (ix2 (0 : Fin 1) (0 : Fin 1)))
    (h3 : x3 (ix1 (0 : Fin 1)) = b (ix1 (0 : Fin 1)))
    (r : Fin 8192) :
    k0_pay1 (F := Ideal) x0 x1 x2 x3 (ix1 r)
      = rows (n := 1007616) Xp cc w b (ix1 (⟨q * 8192 + r.val, by have := r.isLt; omega⟩ : Fin 1007616)) := by
  rw [pay_row, h2, h3]
  unfold rows
  have e0 : (fun k => x0 (ix2 r k)) = fun k => Xp (ix2 (⟨q * 8192 + r.val, by have := r.isLt; omega⟩ : Fin 1007616) k) :=
    funext fun k => h0 r k
  have e1 : (fun k => x1 (ix1 k)) = fun k => cc (ix1 k) := funext h1
  rw [e0, e1]

/-! ## From blocks to the array -/

/-- The output array the blocks fill: the row function over the padded array as the region finds it. -/
abbrev Gp (c : Dev nD) : S1007616.Idx → EReal :=
  rows (n := 1007616) (V m c main_v0) (V m c main_arg1) (V m c main_arg2) (V m c main_arg3)

/-- WHAT POINT `t` WRITES BACK is block `t` of `Gp`. -/
theorem flushed_eq (c : Dev nD) (t : Fin cfg0.N) :
    (dats m 0 c).flushed 4 t = ((cfg0.win 4).blk t).view.read (Elt Ideal) (Gp m c) := by
  show (cfg0.win 4).cut (grid0.coords t) ((dats m 0 c).after 4 t) = _
  rw [after0_4]
  unfold out0_4
  rw [View.canon_unit_zero hz1]
  simp only [View.ld_unit_zero (S := S8192x128) hz2, View.ld_unit_zero (S := S128) hz1, View.ld_unit_zero (S := S1x1) hz2,
    View.ld_unit_zero (S := S1) hz1]
  obtain ⟨e0, e1, e2, e3, e4, e5, e6⟩ := idx_facts t
  funext j
  have hj : (j 0).val < 8192 := (j 0).isLt
  show k0_pay1 (F := Ideal) (iblk m c 0 t) (iblk m c 1 t) (iblk m c 2 t) (iblk m c 3 t) j = Gp m c (((cfg0.win 4).blk t).view.emb j)
  have hjr : j = ix1 (⟨(j 0).val, hj⟩ : Fin 8192) := funext fun a => Fin.ext (by match a with | ⟨0, _⟩ => rfl)
  have hemb : ((cfg0.win 4).blk t).view.emb j = ix1 (⟨win0_4.index t (0 : Fin 1) * 8192 + (j 0).val, by omega⟩ : Fin 1007616) := by
    funext a; apply Fin.ext
    match a with
    | ⟨0, _⟩ => show win0_4.index t (0 : Fin 1) * 8192 + 1 * (j 0).val = win0_4.index t (0 : Fin 1) * 8192 + (j 0).val; omega
  rw [hemb]
  refine (congrArg (k0_pay1 (F := Ideal) (iblk m c 0 t) (iblk m c 1 t) (iblk m c 2 t) (iblk m c 3 t)) hjr).trans ?_
  refine point_eq (V m c main_v0) (V m c main_arg1) (V m c main_arg2) (V m c main_arg3) (iblk m c 0 t) (iblk m c 1 t) (iblk m c 2 t) (iblk m c 3 t)
    (win0_4.index t (0 : Fin 1)) e6 ?_ ?_ ?_ ?_ ⟨(j 0).val, hj⟩
  · intro r k
    show V m c main_v0 (((cfg0.win 0).blk t).view.emb (ix2 r k)) = V m c main_v0 _
    refine congrArg (V m c main_v0) (funext fun a => Fin.ext ?_)
    match a with
    | ⟨0, _⟩ => show win0_0.index t (0 : Fin 2) * 8192 + 1 * r.val = win0_4.index t (0 : Fin 1) * 8192 + r.val; omega
    | ⟨1, _⟩ => show win0_0.index t (1 : Fin 2) * 128 + 1 * k.val = k.val; omega
  · intro k
    show V m c main_arg1 (((cfg0.win 1).blk t).view.emb (ix1 k)) = V m c main_arg1 _
    refine congrArg (V m c main_arg1) (funext fun a => Fin.ext ?_)
    match a with
    | ⟨0, _⟩ => show win0_1.index t (0 : Fin 1) * 128 + 1 * k.val = k.val; omega
  · show V m c main_arg2 (((cfg0.win 2).blk t).view.emb (ix2 (0 : Fin 1) (0 : Fin 1))) = V m c main_arg2 _
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 1 + 1 * 0 = 0; omega
  · show V m c main_arg3 (((cfg0.win 3).blk t).view.emb (ix1 (0 : Fin 1))) = V m c main_arg3 _
    refine congrArg (V m c main_arg3) (funext fun a => Fin.ext ?_)
    match a with
    | ⟨0, _⟩ => show win0_3.index t (0 : Fin 1) * 1 + 1 * 0 = 0; omega

/-- An entry of the output array is in point `t`'s block iff it lies in that block's 8192 entries. -/
theorem mem_blk (t : Fin cfg0.N) (i : S1007616.Idx) :
    i ∈ ((cfg0.win 4).blk t).view.set ↔ ∀ a : Fin 1, win0_4.index t a * S8192.size a ≤ (i a).val ∧ (i a).val < win0_4.index t a * S8192.size a + S8192.size a := by
  show i ∈ ((View.whole main_v1).slice (win0_4.rect t)).set ↔ _
  rw [View.set_slice_whole, Rect.mem_set_unit]
  exact Iff.rfl

/-- The 123 blocks tile the output array: entry `i` is in block `i / 8192`. -/
theorem cover (i : S1007616.Idx) : ∃ t : Fin cfg0.N, (cfg0.win 4).flush t = true ∧ i ∈ ((cfg0.win 4).blk t).view.set := by
  have hi : (i 0).val < 1007616 := (i 0).isLt
  obtain ⟨t, ht⟩ := idx_onto ⟨(i 0).val / 8192, by omega⟩
  have ht' : win0_4.index t (0 : Fin 1) = (i 0).val / 8192 := ht
  refine ⟨t, flush0_4 t, ?_⟩
  rw [mem_blk]
  intro a
  match a with
  | ⟨0, _⟩ => show win0_4.index t (0 : Fin 1) * 8192 ≤ (i 0).val ∧ (i 0).val < win0_4.index t (0 : Fin 1) * 8192 + 8192; omega

/-- THE OUTPUT ARRAY after the region is `Gp`. -/
theorem filled (c : Dev nD) : (dats m 0 c).arrAt 4 cfg0.N = Gp m c :=
  (dats m 0 c).arrAt_eq_of_cover 4 (Gp m c) (fun t _ => flushed_eq m c t) cover

end Cert.KernelIdeal.Whole

end
-- ==== Proof.KernelRun.lean ====
/-
  The kernel program's run, with its result named.

  Before the region the program writes the padded array: the argument's 1000000 rows followed by
  7616 rows of the converted integer zero. After the region it keeps entries 0 … 999999 of the
  1007616-vector the region filled. Entry i < 1000000 of that vector is the row function of row i of
  the padded array, which is row i of the argument; the padding rows never reach a kept entry.
  So the program ends with its result at `rows` of the four arguments, and the arguments unchanged.
-/
import proofs.«166539_j74234214744185_1_alg».proof.Proof.KernelRows

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Rbf Cert.KernelIdeal.RowValue
open Idealize.ShloMosaic.Pipeline (Dat)

variable (m : (ℓ : Loc nD τ sig) → Buf (Elt Ideal) ℓ) (ρ : Dev nD → PrngReg)

/-- The padded array as the region finds it: the host's `pad` of the first argument with the converted zero. -/
theorem V_padded (c : Dev nD) :
    (V m c main_v0 : S1007616x128.Idx → EReal)
      = pad S1007616x128 ![0, 0] ![7616, 0] ![0, 0] (m ((c : Thread nD τ).loc main_arg0))
          (sitofp (F := Ideal) .f32 (constantI S_ 32 0#32)) pads_S1000000x128_S1007616x128_076160_000 h_S_ := by
  dsimp only [V, V0]
  simp only [hostOps0, hostOps0_1, List.flatten_cons, List.flatten_nil, List.append_nil, List.cons_append, List.nil_append]
  after_results
  rfl

/-- A row of the padded array below 1000000 is that row of the argument. -/
theorem padded_row (c : Dev nD) (r : Fin 1000000) (k : Fin 128) :
    (V m c main_v0 : S1007616x128.Idx → EReal) (ix2 (⟨r.val, by have := r.isLt; omega⟩ : Fin 1007616) k)
      = (m ((c : Thread nD τ).loc main_arg0) : S1000000x128.Idx → EReal) (ix2 r k) := by
  rw [V_padded]
  refine pad_apply_of_inside _ _ _ _ _ _ _ _ (ix2 r k) fun a => ?_
  match a with
  | ⟨0, _⟩ => show r.val = 0 + r.val * (0 + 1); omega
  | ⟨1, _⟩ => show k.val = 0 + k.val * (0 + 1); omega

/-- The program's result after the lines that follow the region: the first 1000000 entries of the filled array. -/
theorem tail_eq (c : Dev nD) :
    (Pipeline.afterTail₀ cfgs (dats m) 0 (V0 m) [hostOps1] c main_v2 : S1000000.Idx → EReal)
      = extractStridedSlice S1000000 ![0] ((dats m 0 c).arrAt 4 cfg0.N : S1007616.Idx → EReal) slices_S1007616_S1000000_0 := by
  unfold Pipeline.afterTail₀
  show StableHlo.after hostOps1 _ (Proc.devRef .tc main_v2) = _
  after_results
  rw [Pipeline.withArrays_arr spec0 launch0.win.arr_inj c _ _ 4]

/-- THE RESULT is the row function of every row of the first argument. -/
theorem result_eq (c : Dev nD) :
    (Pipeline.afterTail₀ cfgs (dats m) 0 (V0 m) [hostOps1] c main_v2 : S1000000.Idx → EReal)
      = rows (n := 1000000) (m ((c : Thread nD τ).loc main_arg0)) (m ((c : Thread nD τ).loc main_arg1))
          (m ((c : Thread nD τ).loc main_arg2)) (m ((c : Thread nD τ).loc main_arg3)) := by
  rw [tail_eq, filled]
  funext i
  obtain ⟨r, rfl⟩ : ∃ r : Fin 1000000, i = ix1 r := ⟨i 0, eq_ix1 i⟩
  refine (extractStridedSlice_apply _ _ _ (ix1 r) (ix1 (⟨r.val, by have := r.isLt; omega⟩ : Fin 1007616)) fun a => ?_).trans ?_
  · match a with
    | ⟨0, _⟩ => show r.val = 0 + r.val; omega
  unfold Gp
  rw [V_main_arg1, V_main_arg2, V_main_arg3]
  exact rows_congr _ _ _ _ _ (⟨r.val, by have := r.isLt; omega⟩ : Fin 1007616) r fun k => padded_row m c r k

/-- THE RUN: every weakly fair execution of the program ends with its result at `rows` of the arguments and the
    arguments as launched. -/
theorem run : θ_run defs (onTc (τ := τ) (main (F := Ideal))) ⟨m, fun _ => 0, ρ⟩ fun r => ∀ c : Dev nD,
      r.2.mem ((c.tc : Thread nD τ).loc main_v2)
        = rows (n := 1000000) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Whole

end
-- ==== Proof.RefRows.lean ====
/-
  The reference's result is the row function of every row of its first argument.

  The reference subtracts the centre (broadcast under every row), squares, sums each row over its
  128 lanes starting from the f32 zero, multiplies by the word γ, exponentiates, contracts the
  resulting [n, 1] column with the transposed 1 × 1 weight (a one-term sum), adds the bias and drops
  the unit axis. Entry i of the result therefore reads row i of the argument: 0 + Σ_k is Σ_k, and a
  sum over one index is its term.
-/
import proofs.«166539_j74234214744185_1_alg».proof.Proof.Gen.ReferenceIdeal.Read
import proofs.«166539_j74234214744185_1_alg».proof.Proof.RowFn

noncomputable section

open scoped BigOperators

namespace Cert.ReferenceIdeal.RefRows

open Cert.ReferenceIdeal Cert.ReferenceIdeal.Gen Cert.ReferenceIdeal.Read Idealize.ShloMosaic Idealize.ShloMosaic.ValueIdx Cert.Rbf

/-- Result entry `r`, lane `k` of the reduced operand: entry `(r, k)` of the argument. -/
theorem idx_row (r : Fin 1000000) (k : Fin 128) :
    idx_main_v4 (idx_main_v5 (lidx_main_v10 (idx_main_v14 (ix1 r)) (0 : Fin 1))) k = ix2 r k := by
  funext a; apply Fin.ext
  match a with
  | ⟨0, _⟩ => show r.val / 1 = r.val; omega
  | ⟨1, _⟩ => rfl

/-- Under entry `(r, k)` the broadcast centre is its lane `k`. -/
theorem idx_centre (r : Fin 1000000) (k : Fin 128) :
    idx_main_v0 (idx_main_v1 (ix2 r k : S1000000x128.Idx)) = ix1 k := by
  funext a; apply Fin.ext
  match a with
  | ⟨0, _⟩ => rfl

/-- The transposed weight under the contraction's one term is the weight's one entry. -/
theorem idx_weight (r : Fin 1000000) :
    idx_main_v9 (ridx_main_v10 (idx_main_v14 (ix1 r)) (0 : Fin 1)) = ix2 (0 : Fin 1) (0 : Fin 1) := by
  funext a; apply Fin.ext
  match a with
  | ⟨0, _⟩ => rfl
  | ⟨1, _⟩ => rfl

/-- The broadcast bias under every entry is its one entry. -/
theorem idx_bias (r : Fin 1000000) :
    idx_main_v11 (idx_main_v12 (idx_main_v14 (ix1 r))) = ix1 (0 : Fin 1) := by
  funext a; apply Fin.ext
  match a with
  | ⟨0, _⟩ => rfl

/-- THE REFERENCE'S LAST STAGE is `rows` of its arguments. -/
theorem ref_rows (X : (⟨S1000000x128, .f32⟩ : BufTy).Contents (Elt Ideal)) (c : (⟨S128, .f32⟩ : BufTy).Contents (Elt Ideal))
    (w : (⟨S1x1, .f32⟩ : BufTy).Contents (Elt Ideal)) (b : (⟨S1, .f32⟩ : BufTy).Contents (Elt Ideal)) :
    val_main_v14 (F := Ideal) X c w b = rows (n := 1000000) X c w b := by
  funext i
  obtain ⟨r, rfl⟩ : ∃ r : Fin 1000000, i = ix1 r := ⟨i 0, eq_ix1 i⟩
  rw [val_main_v14_apply, val_main_v13_apply, val_main_v10_apply, Fin.sum_univ_one, val_main_v12_apply, val_main_v11_apply,
    val_main_v9_apply, val_main_v8_apply, val_main_v7_apply, val_main_v6_apply, val_main_cst_0_apply, val_main_v5_apply,
    val_main_v4_apply, val_main_cst_apply, idx_weight, idx_bias]
  simp only [idx_row, val_main_v3_apply, val_main_v2_apply, val_main_v1_apply, val_main_v0_apply, idx_centre]
  show Ideal.exp (Ideal.ofBits .f32 0xBC000000#32 * (Ideal.ofBits .f32 0x00000000#32 + ∑ k : Fin 128, (X (ix2 r k) - c (ix1 k)) * (X (ix2 r k) - c (ix1 k))))
      * w (ix2 (0 : Fin 1) (0 : Fin 1)) + b (ix1 (0 : Fin 1)) = _
  rw [Ideal.ofBits_zero_f32, zero_add]
  rfl

end Cert.ReferenceIdeal.RefRows

end
-- ==== Proof.lean ====
/-
  A radial-basis row kernel against its jnp reference, over the extended reals.

  Both programs map X ∈ EReal^(1000000 × 128), a centre c ∈ EReal^128, a 1 × 1 weight w and a 1-entry
  bias b to the vector whose entry i is
      exp (γ · Σ_k (X[i,k] − c[k])²) · w[0,0] + b[0],        γ the f32 word 0xBC000000 (−1/128).
  The kernel pads X with 7616 zero rows, computes 123 blocks of 8192 rows with a lane reduction per
  row, and keeps the first 1000000 entries; the reference computes all rows at once, its row sum
  started from the f32 zero and its product with w written as a one-term contraction. At the ideal
  instance the two are the same function of the arguments, term by term: no sum is reordered, no
  product redistributed, so nothing is asked of the inputs' finiteness.

  The kernel's run (`Cert.KernelIdeal.Whole.run`) and the reference's (`Cert.ReferenceIdeal.Value.run`
  read through `Cert.ReferenceIdeal.RefRows.ref_rows`) are stated with the same term `Cert.Rbf.rows`;
  the three frames are the generated ones, and the idealization rewrote nothing.
-/
import proofs.«166539_j74234214744185_1_alg».proof.Defs
import proofs.«166539_j74234214744185_1_alg».proof.Proof.Gen.Kernel
import proofs.«166539_j74234214744185_1_alg».proof.Proof.Gen.Kernel.Frame
import proofs.«166539_j74234214744185_1_alg».proof.Proof.Gen.KernelIdeal
import proofs.«166539_j74234214744185_1_alg».proof.Proof.Gen.KernelIdeal.Frame
import proofs.«166539_j74234214744185_1_alg».proof.Proof.Gen.ReferenceIdeal
import proofs.«166539_j74234214744185_1_alg».proof.Proof.Gen.Pre_finite_inputs
import proofs.«166539_j74234214744185_1_alg».proof.Proof.Gen.ReferenceIdeal.Run
import proofs.«166539_j74234214744185_1_alg».proof.Proof.Gen.ReferenceIdeal.Read
import proofs.«166539_j74234214744185_1_alg».proof.Proof.KernelRun
import proofs.«166539_j74234214744185_1_alg».proof.Proof.RefRows
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the four arguments both programs end with their result at `rows` of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _ _).trans ?_
  rw [Cert.ReferenceIdeal.RefRows.ref_rows, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
